-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x500000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S5000x128 : Shape := ⟨2, ![5000, 128]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S50000x64 : Shape := ⟨2, ![50000, 64]⟩
abbrev S5000x64 : Shape := ⟨2, ![5000, 64]⟩
abbrev S500000x64 : Shape := ⟨2, ![500000, 64]⟩
abbrev S1x64 : Shape := ⟨2, ![1, 64]⟩

abbrev nBuf : Space → Nat
  | .hbm => 121
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S50000x128, .f32⟩
  | .hbm, ⟨11, _⟩ => ⟨S_, .f32⟩
  | .hbm, ⟨12, _⟩ => ⟨S500000, .f32⟩
  | .hbm, ⟨13, _⟩ => ⟨S_, .f32⟩
  | .hbm, ⟨14, _⟩ => ⟨S50000, .f32⟩
  | .hbm, ⟨15, _⟩ => ⟨S500000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000, .f32⟩
  | .hbm, ⟨39, _⟩ => ⟨S500000, .f32⟩
  | .hbm, ⟨40, _⟩ => ⟨S500000x1, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x128, .f32⟩
  | .hbm, ⟨51, _⟩ => ⟨S500000x128, .f32⟩
  | .hbm, ⟨52, _⟩ => ⟨S_, .f32⟩
  | .hbm, ⟨53, _⟩ => ⟨S50000x128, .f32⟩
  | .hbm, ⟨54, _⟩ => ⟨S500000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .f32⟩
  | .hbm, ⟨69, _⟩ => ⟨S500000, .f32⟩
  | .hbm, ⟨70, _⟩ => ⟨S_, .f32⟩
  | .hbm, ⟨71, _⟩ => ⟨S50000, .f32⟩
  | .hbm, ⟨72, _⟩ => ⟨S500000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S500000, .i32⟩
  | .hbm, ⟨80, _⟩ => ⟨S500000, .i1⟩
  | .hbm, ⟨81, _⟩ => ⟨S_, .i32⟩
  | .hbm, ⟨82, _⟩ => ⟨S500000, .i32⟩
  | .hbm, ⟨83, _⟩ => ⟨S500000, .i32⟩
  | .hbm, ⟨84, _⟩ => ⟨S500000, .i32⟩
  | .hbm, ⟨85, _⟩ => ⟨S500000x1, .i32⟩
  | .hbm, ⟨86, _⟩ => ⟨S500000, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000, .f32⟩
  | .hbm, ⟨96, _⟩ => ⟨S500000, .f32⟩
  | .hbm, ⟨97, _⟩ => ⟨S500000x1, .f32⟩
  | .hbm, ⟨98, _⟩ => ⟨S_, .i32⟩
  | .hbm, ⟨99, _⟩ => ⟨S500000, .i32⟩
  | .hbm, ⟨100, _⟩ => ⟨S500000, .i1⟩
  | .hbm, ⟨101, _⟩ => ⟨S_, .i32⟩
  | .hbm, ⟨102, _⟩ => ⟨S500000, .i32⟩
  | .hbm, ⟨103, _⟩ => ⟨S500000, .i32⟩
  | .hbm, ⟨104, _⟩ => ⟨S500000, .i32⟩
  | .hbm, ⟨105, _⟩ => ⟨S500000x1, .i32⟩
  | .hbm, ⟨106, _⟩ => ⟨S500000x64, .f32⟩
  | .hbm, ⟨107, _⟩ => ⟨S500000x64, .f32⟩
  | .hbm, ⟨108, _⟩ => ⟨S500000x64, .f32⟩
  | .hbm, ⟨109, _⟩ => ⟨S_, .f32⟩
  | .hbm, ⟨110, _⟩ => ⟨S50000x64, .f32⟩
  | .hbm, ⟨111, _⟩ => ⟨S500000x1, .i32⟩
  | .hbm, ⟨112, _⟩ => ⟨S50000x64, .f32⟩
  | .hbm, ⟨113, _⟩ => ⟨S50000, .f32⟩
  | .hbm, ⟨114, _⟩ => ⟨S50000x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x128_S128x128_S5000x128_1_0_0_1_n_n_wf : DotDims.WF S5000x128 S128x128 S5000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x64_S5000x64_1_0_0_1_n_n_wf : DotDims.WF S5000x128 S128x64 S5000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S50000x64 : Shape := ⟨2, ![50000, 64]⟩
abbrev S500000x64 : Shape := ⟨2, ![500000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S50000x128, .f32⟩
  | .hbm, ⟨11, _⟩ => ⟨S_, .f32⟩
  | .hbm, ⟨12, _⟩ => ⟨S500000, .f32⟩
  | .hbm, ⟨13, _⟩ => ⟨S_, .f32⟩
  | .hbm, ⟨14, _⟩ => ⟨S50000, .f32⟩
  | .hbm, ⟨15, _⟩ => ⟨S500000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000, .f32⟩
  | .hbm, ⟨39, _⟩ => ⟨S500000, .f32⟩
  | .hbm, ⟨40, _⟩ => ⟨S500000x1, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x128, .f32⟩
  | .hbm, ⟨51, _⟩ => ⟨S500000x128, .f32⟩
  | .hbm, ⟨52, _⟩ => ⟨S_, .f32⟩
  | .hbm, ⟨53, _⟩ => ⟨S50000x128, .f32⟩
  | .hbm, ⟨54, _⟩ => ⟨S500000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .f32⟩
  | .hbm, ⟨69, _⟩ => ⟨S500000, .f32⟩
  | .hbm, ⟨70, _⟩ => ⟨S_, .f32⟩
  | .hbm, ⟨71, _⟩ => ⟨S50000, .f32⟩
  | .hbm, ⟨72, _⟩ => ⟨S500000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S500000, .i32⟩
  | .hbm, ⟨80, _⟩ => ⟨S500000, .i1⟩
  | .hbm, ⟨81, _⟩ => ⟨S_, .i32⟩
  | .hbm, ⟨82, _⟩ => ⟨S500000, .i32⟩
  | .hbm, ⟨83, _⟩ => ⟨S500000, .i32⟩
  | .hbm, ⟨84, _⟩ => ⟨S500000, .i32⟩
  | .hbm, ⟨85, _⟩ => ⟨S500000x1, .i32⟩
  | .hbm, ⟨86, _⟩ => ⟨S500000, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000, .f32⟩
  | .hbm, ⟨96, _⟩ => ⟨S500000, .f32⟩
  | .hbm, ⟨97, _⟩ => ⟨S500000x1, .f32⟩
  | .hbm, ⟨98, _⟩ => ⟨S_, .i32⟩
  | .hbm, ⟨99, _⟩ => ⟨S500000, .i32⟩
  | .hbm, ⟨100, _⟩ => ⟨S500000, .i1⟩
  | .hbm, ⟨101, _⟩ => ⟨S_, .i32⟩
  | .hbm, ⟨102, _⟩ => ⟨S500000, .i32⟩
  | .hbm, ⟨103, _⟩ => ⟨S500000, .i32⟩
  | .hbm, ⟨104, _⟩ => ⟨S500000, .i32⟩
  | .hbm, ⟨105, _⟩ => ⟨S500000x1, .i32⟩
  | .hbm, ⟨106, _⟩ => ⟨S500000x64, .f32⟩
  | .hbm, ⟨107, _⟩ => ⟨S500000x64, .f32⟩
  | .hbm, ⟨108, _⟩ => ⟨S500000x64, .f32⟩
  | .hbm, ⟨109, _⟩ => ⟨S_, .f32⟩
  | .hbm, ⟨110, _⟩ => ⟨S50000x64, .f32⟩
  | .hbm, ⟨111, _⟩ => ⟨S500000x1, .i32⟩
  | .hbm, ⟨112, _⟩ => ⟨S50000x64, .f32⟩
  | .hbm, ⟨113, _⟩ => ⟨S50000, .f32⟩
  | .hbm, ⟨114, _⟩ => ⟨S50000x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x64_S50000x64_1_0_0_1_n_n_wf : DotDims.WF S50000x128 S128x64 S50000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

class Facts : Prop extends Facts₀ where

variable [Facts]
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.HostChain.lean ====
/-
  The part of the graph convolution that both programs compute with the same host operations, written once as pure
  functions of arrays (generic in the float instance).

  With `n = 50000` nodes and `E = 500000` edges `(src e, dst e)`, one layer maps a feature matrix `h : [n, C]` to
      out[i, :] = Σ_{e : dst e = i} coef e · h[src e, :]  +  dinv[i]² · h[i, :]  +  b
  where `deg[i] = 1 + #{e : dst e = i}`, `dinv = deg^(-1/2)` and `coef e = dinv[src e] · dinv[dst e]`. A negative index is
  first wrapped by `+ n` (an index below zero counts from the end), and the scatter-add drops what is out of range.
  The two programs differ only in how `h` itself is produced (a tiled matrix product against one whole product), so
  everything here is carried as an opaque function of `h`.
-/
import proofs.«137767_j37477884625100_1_alg».proof.ReferenceIdeal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- Row 0 of the edge list: the source node of every edge. -/
def srcOf (e : IVec S2x500000 32) : IVec S500000 32 :=
  shapeCast S500000 (extractStridedSlice S1x500000 ![0, 0] e slices_S2x500000_S1x500000_0_0) shapeCasts_S1x500000_S500000

/-- Row 1 of the edge list: the destination node of every edge. -/
def dstOf (e : IVec S2x500000 32) : IVec S500000 32 :=
  shapeCast S500000 (extractStridedSlice S1x500000 ![1, 0] e slices_S2x500000_S1x500000_1_0) shapeCasts_S1x500000_S500000

/-- A negative node index counts from the end: `i < 0 ? i + n : i`. -/
def wrap (i : IVec S500000 32) : IVec S500000 32 :=
  select (cmpi .slt i (broadcastInDim S500000 ![] bcast_S_S500000 (constantI S_ 32 0#32)))
    (addi i (broadcastInDim S500000 ![] bcast_S_S500000 (constantI S_ 32 50000#32))) i

/-- A vector of `E` indices as the `[E, 1]` index matrix a gather or scatter takes. -/
def col (i : IVec S500000 32) : IVec S500000x1 32 :=
  broadcastInDim S500000x1 ![0] bcast_S500000_S500000x1_0 i

/-- `dinv = (1 + in-degree)^(-1/2)`: ones scattered onto the destinations, plus the self loop, then `rsqrt`. -/
def dinv (dst : IVec S500000 32) : FVec F S50000 .f32 :=
  Host.rsqrt (addf
    (Host.scatterAdd scatter_S50000_S500000x1_S500000_n_0_0_1
      (broadcastInDim S50000 ![] bcast_S_S50000 (constant S_ .f32 0x00000000#32))
      (col dst)
      (broadcastInDim S500000 ![] bcast_S_S500000 (constant S_ .f32 0x3F800000#32)))
    (broadcastInDim S50000 ![] bcast_S_S50000 (constant S_ .f32 0x3F800000#32)))

/-- The weight of an edge: `dinv[src] · dinv[dst]`, as an `[E, 1]` column. -/
def coef (src dst : IVec S500000 32) : FVec F S500000x1 .f32 :=
  broadcastInDim S500000x1 ![0] bcast_S500000_S500000x1_0
    (mulf (Host.gather gather_S50000_S500000x1_S500000_n_0_n_n_0_1_1 (dinv (F := F) dst) (col (wrap src)))
          (Host.gather gather_S50000_S500000x1_S500000_n_0_n_n_0_1_1 (dinv (F := F) dst) (col (wrap dst))))

/-- The self-loop weight `dinv²`, as an `[n, 1]` column. -/
def selfw (dst : IVec S500000 32) : FVec F S50000x1 .f32 :=
  broadcastInDim S50000x1 ![0] bcast_S50000_S50000x1_0 (mulf (dinv (F := F) dst) (dinv (F := F) dst))

/-- The first layer after its matrix product: aggregate `h : [n, 128]` over the edges, add the self loops and the bias. -/
def conv128 (h : FVec F S50000x128 .f32) (src dst : IVec S500000 32) (b : FVec F S128 .f32) : FVec F S50000x128 .f32 :=
  addf (addf
      (Host.scatterAdd scatter_S50000x128_S500000x1_S500000x128_1_0_0_1
        (broadcastInDim S50000x128 ![] bcast_S_S50000x128 (constant S_ .f32 0x00000000#32))
        (col dst)
        (mulf (broadcastInDim S500000x128 ![0, 1] bcast_S500000x1_S500000x128_0_1 (coef (F := F) src dst))
              (Host.gather gather_S50000x128_S500000x1_S500000x128_1_0_n_n_0_1_1128 h (col (wrap src)))))
      (mulf (broadcastInDim S50000x128 ![0, 1] bcast_S50000x1_S50000x128_0_1 (selfw (F := F) dst)) h))
    (broadcastInDim S50000x128 ![0, 1] bcast_S1x128_S50000x128_0_1 (broadcastInDim S1x128 ![1] bcast_S128_S1x128_1 b))

/-- `max(·, 0)` entry by entry. -/
def relu (x : FVec F S50000x128 .f32) : FVec F S50000x128 .f32 :=
  maximumf x (broadcastInDim S50000x128 ![] bcast_S_S50000x128 (constant S_ .f32 0x00000000#32))

/-- The second layer after its matrix product: the same aggregation on `h : [n, 64]`. -/
def conv64 (h : FVec F S50000x64 .f32) (src dst : IVec S500000 32) (b : FVec F S64 .f32) : FVec F S50000x64 .f32 :=
  addf (addf
      (Host.scatterAdd scatter_S50000x64_S500000x1_S500000x64_1_0_0_1
        (broadcastInDim S50000x64 ![] bcast_S_S50000x64 (constant S_ .f32 0x00000000#32))
        (col dst)
        (mulf (broadcastInDim S500000x64 ![0, 1] bcast_S500000x1_S500000x64_0_1 (coef (F := F) src dst))
              (Host.gather gather_S50000x64_S500000x1_S500000x64_1_0_n_n_0_1_164 h (col (wrap src)))))
      (mulf (broadcastInDim S50000x64 ![0, 1] bcast_S50000x1_S50000x64_0_1 (selfw (F := F) dst)) h))
    (broadcastInDim S50000x64 ![0, 1] bcast_S1x64_S50000x64_0_1 (broadcastInDim S1x64 ![1] bcast_S64_S1x64_1 b))

/-- The whole-array matrix products `x · W₁ : [n, 128]` and `h · W₂ : [n, 64]` (contraction over the 128 features). -/
def dense1 (x : FVec F S50000x128 .f32) (w : FVec F S128x128 .f32) : FVec F S50000x128 .f32 :=
  Host.dotGeneral dot_S50000x128_S128x128_S50000x128_1_0_0_1_n_n none x w
def dense2 (x : FVec F S50000x128 .f32) (w : FVec F S128x64 .f32) : FVec F S50000x64 .f32 :=
  Host.dotGeneral dot_S50000x128_S128x64_S50000x64_1_0_0_1_n_n none x w

/-- The two-layer network: `conv64 (relu (conv128 (x·W₁)) · W₂)` over one edge list. -/
def forward (x : FVec F S50000x128 .f32) (e : IVec S2x500000 32) (w1 : FVec F S128x128 .f32) (b1 : FVec F S128 .f32)
    (w2 : FVec F S128x64 .f32) (b2 : FVec F S64 .f32) : FVec F S50000x64 .f32 :=
  conv64 (dense2 (relu (conv128 (dense1 x w1) (srcOf e) (dstOf e) b1)) w2) (srcOf e) (dstOf e) b2

end Cert.Gcn

end
-- ==== Proof.Dense.lean ====
/-
  What each of the two kernel regions leaves in its output array, at the ideal instance: the whole-array matrix product
  of the two arrays it reads.

  A region walks ten grid points; point `t` reads rows `5000·t … 5000·t + 4999` of the left array and the whole right
  array, multiplies them (the casts to bf16 are the identity on the extended reals, the accumulator starts at zero) and
  writes the `5000 × N` product back as rows `5000·t …` of the output. Entry `(p, q)` of that block is
  `Σ_k left[5000·t + p, k] · right[k, q]`, which is entry `(5000·t + p, q)` of the whole product; the ten row blocks cover
  all 50000 rows, so the output array ends as the whole product.
-/
import proofs.«137767_j37477884625100_1_alg».proof.Proof.LibPlainDot
import proofs.«137767_j37477884625100_1_alg».proof.Proof.HostChain
import proofs.«137767_j37477884625100_1_alg».proof.Proof.Gen.ReferenceIdeal
import proofs.«137767_j37477884625100_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense

open Idealize.ShloMosaic Idealize.ShloMosaic.TcCoe Idealize.ShloMosaic.ValueIdx Idealize.SL.Sem
open Cert.KernelIdeal Cert.KernelIdeal.Gen

theorem hz : (![0, 0] : Fin 2 → Nat) = fun _ => 0 := funext fun a => by fin_cases a <;> rfl

/-! ## The two kinds of product involved are plain row-by-column products -/

theorem plainK0 : PlainDot.IsPlain dot_S5000x128_S128x128_S5000x128_1_0_0_1_n_n := ⟨rfl, rfl, rfl, rfl, rfl, rfl⟩
theorem plainK1 : PlainDot.IsPlain dot_S5000x128_S128x64_S5000x64_1_0_0_1_n_n := ⟨rfl, rfl, rfl, rfl, rfl, rfl⟩
theorem plainR0 : PlainDot.IsPlain Cert.ReferenceIdeal.dot_S50000x128_S128x128_S50000x128_1_0_0_1_n_n := ⟨rfl, rfl, rfl, rfl, rfl, rfl⟩
theorem plainR1 : PlainDot.IsPlain Cert.ReferenceIdeal.dot_S50000x128_S128x64_S50000x64_1_0_0_1_n_n := ⟨rfl, rfl, rfl, rfl, rfl, rfl⟩

/-! ## A block's product and the whole product, at an entry -/

/-- Region 0's stored value at `(p, q)` of a block: the row of the left block against the column of the right array. -/
theorem pay0_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  exact PlainDot.matmul_zero_apply plainK0 none _ _ p q

/-- The whole product `x · W₁` at `(P, q)`. -/
theorem dense1_apply (x : FVec Ideal Cert.ReferenceIdeal.S50000x128 .f32) (w : FVec Ideal Cert.ReferenceIdeal.S128x128 .f32)
    (P : Fin 50000) (q : Fin 128) :
    Cert.Gcn.dense1 x w (ix2 P q) = ∑ k : Fin 128, x (ix2 P k) * w (ix2 k q) := by
  unfold Cert.Gcn.dense1
  exact PlainDot.dotGeneral_apply plainR0 none _ _ _ P q

/-- Region 1's stored value at `(p, q)` of a block (the cast of the left block to its own shape changes nothing). -/
theorem pay1_apply (x : FVec Ideal S5000x128 .f32) (w : FVec Ideal S128x64 .f32) (p : Fin 5000) (q : Fin 64) :
    k1_pay1 (F := Ideal) x w (ix2 p q) = ∑ k : Fin 128, x (ix2 p k) * w (ix2 k q) := by
  unfold k1_pay1
  refine (PlainDot.matmul_zero_apply plainK1 none _ _ p q).trans (Finset.sum_congr rfl fun k _ => ?_)
  show (shapeCast S5000x128 x shapeCasts_S5000x128_S5000x128) (ix2 p k) * w (ix2 k q) = _
  rw [shapeCast_self]

/-- The whole product `h · W₂` at `(P, q)`. -/
theorem dense2_apply (x : FVec Ideal Cert.ReferenceIdeal.S50000x128 .f32) (w : FVec Ideal Cert.ReferenceIdeal.S128x64 .f32)
    (P : Fin 50000) (q : Fin 64) :
    Cert.Gcn.dense2 x w (ix2 P q) = ∑ k : Fin 128, x (ix2 P k) * w (ix2 k q) := by
  unfold Cert.Gcn.dense2
  exact PlainDot.dotGeneral_apply plainR1 none _ _ _ P q

/-! ## Region 0: `x · W₁` -/

section Region0

variable (V : (c : Dev nD) → (b : Ref sig .tc) → Buf (Elt Ideal) ((c : Thread nD τ).loc b))

/-- The printed index maps over the ten grid points: the left and the output windows' block row is the point's number,
    every block column is 0, and the right window stays on its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt0 (t : Fin cfg0.N) : t.val < 10 := lt_of_lt_of_eq t.isLt (N_0 : cfg0.N = 10)

/-- The left window's block at point `t` is rows `5000·t …` of the left array. -/
theorem xblk0 (c : Dev nD) (t : Fin cfg0.N) (p : Fin 5000) (k : Fin 128) (P : Fin 50000) (hP : P.val = t.val * 5000 + p.val) :
    iblk0 V c 0 t (ix2 p k) = (V c main_arg0 : FVec Ideal S50000x128 .f32) (ix2 P k) := by
  obtain ⟨e0, e1, -, -, -, -⟩ := idx0 t
  show V c main_arg0 (((cfg0.win 0).blk t).view.emb (ix2 p k)) = V c main_arg0 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- The right window's block at every point is the whole right array. -/
theorem wblk0 (c : Dev nD) (t : Fin cfg0.N) (k : Fin 128) (q : Fin 128) :
    iblk0 V c 1 t (ix2 k q) = (V c main_arg2 : FVec Ideal S128x128 .f32) (ix2 k q) := by
  obtain ⟨-, -, e2, e3, -, -⟩ := idx0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the whole product. -/
theorem flushed0 (c : Dev nD) (t : Fin cfg0.N) :
    (dat0 V c).flushed 2 t = ((cfg0.win 2).blk t).view.read (Elt Ideal) (Cert.Gcn.dense1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  obtain ⟨-, -, -, -, e4, e5⟩ := idx0 t
  have ht := lt0 t
  have hP : t.val * 5000 + p.val < 50000 := by have := p.isLt; omega
  have hemb : ((cfg0.win 2).blk t).view.emb (ix2 p q) = ix2 (⟨t.val * 5000 + p.val, hP⟩ : Fin 50000) q :=
    funext fun a => Fin.ext (by
      match a with
      | ⟨0, _⟩ => show win0_2.index t (0 : Fin 2) * 5000 + 1 * p.val = t.val * 5000 + p.val; omega
      | ⟨1, _⟩ => show win0_2.index t (1 : Fin 2) * 128 + 1 * q.val = q.val; omega)
  show k0_pay1 (F := Ideal) (iblk0 V c 0 t) (iblk0 V c 1 t) (ix2 p q)
    = Cert.Gcn.dense1 (F := Ideal) (V c main_arg0) (V c main_arg2) (((cfg0.win 2).blk t).view.emb (ix2 p q))
  rw [hemb]
  refine (pay0_apply _ _ p q).trans ((Finset.sum_congr rfl fun k _ => ?_).trans (dense1_apply _ _ _ q).symm)
  rw [xblk0 V c t p k ⟨t.val * 5000 + p.val, hP⟩ rfl, wblk0 V c t k q]

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Row `r` lies in the block of point `r / 5000`: the ten blocks cover the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) (N_0 : cfg0.N = 10).symm⟩
  obtain ⟨-, -, -, -, e4, e5⟩ := idx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves the whole product `x · W₁` in its output array. -/
theorem final0 (c : Dev nD) : (dat0 V c).arrAt 2 cfg0.N = Cert.Gcn.dense1 (F := Ideal) (V c main_arg0) (V c main_arg2) :=
  (dat0 V c).arrAt_eq_of_cover 2 _ (fun t _ => flushed0 V c t) cover0

end Region0

/-! ## Region 1: `h · W₂`, with `h` the first layer's output as the region finds it in `main_v48` -/

section Region1

variable (V : (c : Dev nD) → (b : Ref sig .tc) → Buf (Elt Ideal) ((c : Thread nD τ).loc b))

/-- The printed index maps over the ten grid points, as for region 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 10 := lt_of_lt_of_eq t.isLt (N_1 : cfg1.N = 10)

/-- The left window's block at point `t` is rows `5000·t …` of the left array. -/
theorem xblk1 (c : Dev nD) (t : Fin cfg1.N) (p : Fin 5000) (k : Fin 128) (P : Fin 50000) (hP : P.val = t.val * 5000 + p.val) :
    iblk1 V c 0 t (ix2 p k) = (V c main_v48 : FVec Ideal S50000x128 .f32) (ix2 P k) := by
  obtain ⟨e0, e1, -, -, -, -⟩ := idx1 t
  show V c main_v48 (((cfg1.win 0).blk t).view.emb (ix2 p k)) = V c main_v48 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- The right window's block at every point is the whole right array. -/
theorem wblk1 (c : Dev nD) (t : Fin cfg1.N) (k : Fin 128) (q : Fin 64) :
    iblk1 V c 1 t (ix2 k q) = (V c main_arg4 : FVec Ideal S128x64 .f32) (ix2 k q) := by
  obtain ⟨-, -, e2, e3, -, -⟩ := idx1 t
  show V c main_arg4 (((cfg1.win 1).blk t).view.emb (ix2 k q)) = V c main_arg4 (ix2 k q)
  refine congrArg _ (funext fun a => Fin.ext ?_)
  match a with
  | ⟨0, _⟩ => show win1_1.index t (0 : Fin 2) * 128 + 1 * k.val = k.val; omega
  | ⟨1, _⟩ => show win1_1.index t (1 : Fin 2) * 64 + 1 * q.val = q.val; omega

/-- What point `t` writes back is block `t` of the whole product. -/
theorem flushed1 (c : Dev nD) (t : Fin cfg1.N) :
    (dat1 V c).flushed 2 t = ((cfg1.win 2).blk t).view.read (Elt Ideal) (Cert.Gcn.dense2 (F := Ideal) (V c main_v48) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  obtain ⟨-, -, -, -, e4, e5⟩ := idx1 t
  have ht := lt1 t
  have hP : t.val * 5000 + p.val < 50000 := by have := p.isLt; omega
  have hemb : ((cfg1.win 2).blk t).view.emb (ix2 p q) = ix2 (⟨t.val * 5000 + p.val, hP⟩ : Fin 50000) q :=
    funext fun a => Fin.ext (by
      match a with
      | ⟨0, _⟩ => show win1_2.index t (0 : Fin 2) * 5000 + 1 * p.val = t.val * 5000 + p.val; omega
      | ⟨1, _⟩ => show win1_2.index t (1 : Fin 2) * 64 + 1 * q.val = q.val; omega)
  show k1_pay1 (F := Ideal) (iblk1 V c 0 t) (iblk1 V c 1 t) (ix2 p q)
    = Cert.Gcn.dense2 (F := Ideal) (V c main_v48) (V c main_arg4) (((cfg1.win 2).blk t).view.emb (ix2 p q))
  rw [hemb]
  refine (pay1_apply _ _ p q).trans ((Finset.sum_congr rfl fun k _ => ?_).trans (dense2_apply _ _ _ q).symm)
  rw [xblk1 V c t p k ⟨t.val * 5000 + p.val, hP⟩ rfl, wblk1 V c t k q]

/-- An index of the output array is in point `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Row `r` lies in the block of point `r / 5000`: the ten blocks cover the array. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  let t : Fin cfg1.N := ⟨(i 0).val / 5000, lt_of_lt_of_eq (by omega : (i 0).val / 5000 < 10) (N_1 : cfg1.N = 10).symm⟩
  obtain ⟨-, -, -, -, e4, e5⟩ := idx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- Region 1 leaves the whole product `h · W₂` in its output array. -/
theorem final1 (c : Dev nD) : (dat1 V c).arrAt 2 cfg1.N = Cert.Gcn.dense2 (F := Ideal) (V c main_v48) (V c main_arg4) :=
  (dat1 V c).arrAt_eq_of_cover 2 _ (fun t _ => flushed1 V c t) cover1

end Region1

end Cert.KernelIdeal.Dense

end
-- ==== Proof.HostStages.lean ====
/-
  The kernel program's host stretches as the functions of Proof/HostChain.lean. Between its two matrix-product
  regions the program runs the same host operations as the reference, so from ANY buffer contents `V`:
    * the first stretch leaves the two rows of the edge list in `main_v1` (sources) and `main_v3` (destinations);
    * the second leaves `conv128` of the first product, the edge list and the first bias in `main_v47`;
    * the third (the outlined `relu`) leaves `max(·, 0)` of that in `main_v48`;
    * the last leaves `conv64` of the second product, the edge list and the second bias in `main_v92`;
  and a stretch leaves alone every buffer it does not write (the edge rows, the arguments).
-/
import proofs.«137767_j37477884625100_1_alg».proof.Proof.HostChain
import proofs.«137767_j37477884625100_1_alg».proof.Proof.Gen.ReferenceIdeal
import proofs.«137767_j37477884625100_1_alg».proof.Proof.Gen.KernelIdeal.Launch
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable {F : FTy → Type} [FloatOps F] (V : Valuation τ sig (Elt F))

/-! ## The first stretch: the edge list's rows -/

theorem s0_src : after hostOps0 V (Proc.devRef .tc main_v1) = Cert.Gcn.srcOf (V (Proc.devRef .tc main_arg1)) := by
  after_results_simp <;> rfl
theorem s0_dst : after hostOps0 V (Proc.devRef .tc main_v3) = Cert.Gcn.dstOf (V (Proc.devRef .tc main_arg1)) := by
  after_results_simp <;> rfl
theorem s0_arg0 : after hostOps0 V (Proc.devRef .tc main_arg0) = V (Proc.devRef .tc main_arg0) := by after_results_simp <;> rfl
theorem s0_arg2 : after hostOps0 V (Proc.devRef .tc main_arg2) = V (Proc.devRef .tc main_arg2) := by after_results_simp <;> rfl
theorem s0_arg3 : after hostOps0 V (Proc.devRef .tc main_arg3) = V (Proc.devRef .tc main_arg3) := by after_results_simp <;> rfl
theorem s0_arg4 : after hostOps0 V (Proc.devRef .tc main_arg4) = V (Proc.devRef .tc main_arg4) := by after_results_simp <;> rfl
theorem s0_arg5 : after hostOps0 V (Proc.devRef .tc main_arg5) = V (Proc.devRef .tc main_arg5) := by after_results_simp <;> rfl

/-! ## The second stretch: the first layer's aggregation -/

set_option maxHeartbeats 4000000 in
theorem s1_conv : after hostOps1 V (Proc.devRef .tc main_v47)
    = Cert.Gcn.conv128 (F := F) (V (Proc.devRef .tc main_v4)) (V (Proc.devRef .tc main_v1)) (V (Proc.devRef .tc main_v3)) (V (Proc.devRef .tc main_arg3)) := by
  after_results_simp <;> rfl
set_option maxHeartbeats 4000000 in
theorem s1_v1 : after hostOps1 V (Proc.devRef .tc main_v1) = V (Proc.devRef .tc main_v1) := by after_results_simp <;> rfl
set_option maxHeartbeats 4000000 in
theorem s1_v3 : after hostOps1 V (Proc.devRef .tc main_v3) = V (Proc.devRef .tc main_v3) := by after_results_simp <;> rfl
set_option maxHeartbeats 4000000 in
theorem s1_arg4 : after hostOps1 V (Proc.devRef .tc main_arg4) = V (Proc.devRef .tc main_arg4) := by after_results_simp <;> rfl
set_option maxHeartbeats 4000000 in
theorem s1_arg5 : after hostOps1 V (Proc.devRef .tc main_arg5) = V (Proc.devRef .tc main_arg5) := by after_results_simp <;> rfl

/-! ## The third stretch: `relu` -/

theorem s2_relu : after hostOps1_1 V (Proc.devRef .tc main_v48) = Cert.Gcn.relu (F := F) (V (Proc.devRef .tc main_v47)) := by
  after_results_simp <;> rfl
theorem s2_v1 : after hostOps1_1 V (Proc.devRef .tc main_v1) = V (Proc.devRef .tc main_v1) := by after_results_simp <;> rfl
theorem s2_v3 : after hostOps1_1 V (Proc.devRef .tc main_v3) = V (Proc.devRef .tc main_v3) := by after_results_simp <;> rfl
theorem s2_arg4 : after hostOps1_1 V (Proc.devRef .tc main_arg4) = V (Proc.devRef .tc main_arg4) := by after_results_simp <;> rfl
theorem s2_arg5 : after hostOps1_1 V (Proc.devRef .tc main_arg5) = V (Proc.devRef .tc main_arg5) := by after_results_simp <;> rfl

/-! ## The last stretch: the second layer's aggregation -/

set_option maxHeartbeats 4000000 in
theorem s3_conv : after hostOps2 V (Proc.devRef .tc main_v92)
    = Cert.Gcn.conv64 (F := F) (V (Proc.devRef .tc main_v49)) (V (Proc.devRef .tc main_v1)) (V (Proc.devRef .tc main_v3)) (V (Proc.devRef .tc main_arg5)) := by
  after_results_simp <;> rfl

end Cert.KernelIdeal.Stages

end
-- ==== Proof.KernelValue.lean ====
/-
  The kernel program's result, at the ideal instance, as the two-layer network of Proof/HostChain.lean applied to the
  six argument arrays. The contents of the buffers are followed through the program's six segments:
    launch → (edge rows) → region 0: x·W₁ → (conv128, then relu) → region 1: h·W₂ → (conv64) → return.
  A host stretch is read by Proof/HostStages.lean, a region by Proof/Dense.lean; a buffer a segment does not write
  is carried across it unchanged.
-/
import proofs.«137767_j37477884625100_1_alg».proof.Proof.Dense
import proofs.«137767_j37477884625100_1_alg».proof.Proof.HostStages
import proofs.«137767_j37477884625100_1_alg».proof.Proof.Gen.KernelIdeal.Frame

set_option maxRecDepth 16384

noncomputable section

namespace Cert.KernelIdeal.NetValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## At region 0's entry: the edge rows are there, the arguments are as launched -/

theorem e1_src : W1 m ρ c (Proc.devRef .tc main_v1) = Cert.Gcn.srcOf (m ((c.tc : Thread nD τ).loc main_arg1)) := Stages.s0_src (W0 m ρ c)
theorem e1_dst : W1 m ρ c (Proc.devRef .tc main_v3) = Cert.Gcn.dstOf (m ((c.tc : Thread nD τ).loc main_arg1)) := Stages.s0_dst (W0 m ρ c)
theorem e1_arg0 : W1 m ρ c (Proc.devRef .tc main_arg0) = m ((c.tc : Thread nD τ).loc main_arg0) := Stages.s0_arg0 (W0 m ρ c)
theorem e1_arg2 : W1 m ρ c (Proc.devRef .tc main_arg2) = m ((c.tc : Thread nD τ).loc main_arg2) := Stages.s0_arg2 (W0 m ρ c)
theorem e1_arg3 : W1 m ρ c (Proc.devRef .tc main_arg3) = m ((c.tc : Thread nD τ).loc main_arg3) := Stages.s0_arg3 (W0 m ρ c)
theorem e1_arg4 : W1 m ρ c (Proc.devRef .tc main_arg4) = m ((c.tc : Thread nD τ).loc main_arg4) := Stages.s0_arg4 (W0 m ρ c)
theorem e1_arg5 : W1 m ρ c (Proc.devRef .tc main_arg5) = m ((c.tc : Thread nD τ).loc main_arg5) := Stages.s0_arg5 (W0 m ρ c)

/-! ## At region 0's exit: its output holds the first product, everything else is as entered -/

theorem e2_h : W2 m ρ c (Proc.devRef .tc main_v4)
    = Cert.Gcn.dense1 (F := Ideal) (m ((c.tc : Thread nD τ).loc main_arg0)) (m ((c.tc : Thread nD τ).loc main_arg2)) := by
  refine (W2_arr m ρ c 2).trans ((Dense.final0 (V1 m ρ) c).trans ?_)
  show Cert.Gcn.dense1 (F := Ideal) (W1 m ρ c (Proc.devRef .tc main_arg0)) (W1 m ρ c (Proc.devRef .tc main_arg2)) = _
  rw [e1_arg0, e1_arg2]
theorem e2_src : W2 m ρ c (Proc.devRef .tc main_v1) = Cert.Gcn.srcOf (m ((c.tc : Thread nD τ).loc main_arg1)) :=
  (W2_of_ne m ρ c main_v1 (by decide)).trans (e1_src m ρ c)
theorem e2_dst : W2 m ρ c (Proc.devRef .tc main_v3) = Cert.Gcn.dstOf (m ((c.tc : Thread nD τ).loc main_arg1)) :=
  (W2_of_ne m ρ c main_v3 (by decide)).trans (e1_dst m ρ c)
theorem e2_arg3 : W2 m ρ c (Proc.devRef .tc main_arg3) = m ((c.tc : Thread nD τ).loc main_arg3) :=
  (W2_of_ne m ρ c main_arg3 (by decide)).trans (e1_arg3 m ρ c)
theorem e2_arg4 : W2 m ρ c (Proc.devRef .tc main_arg4) = m ((c.tc : Thread nD τ).loc main_arg4) :=
  (W2_of_ne m ρ c main_arg4 (by decide)).trans (e1_arg4 m ρ c)
theorem e2_arg5 : W2 m ρ c (Proc.devRef .tc main_arg5) = m ((c.tc : Thread nD τ).loc main_arg5) :=
  (W2_of_ne m ρ c main_arg5 (by decide)).trans (e1_arg5 m ρ c)

/-- The first layer before its `relu`, as a function of the arguments. -/
abbrev layer1 : FVec Ideal Cert.ReferenceIdeal.S50000x128 .f32 :=
  Cert.Gcn.conv128 (F := Ideal) (Cert.Gcn.dense1 (F := Ideal) (m ((c.tc : Thread nD τ).loc main_arg0)) (m ((c.tc : Thread nD τ).loc main_arg2)))
    (Cert.Gcn.srcOf (m ((c.tc : Thread nD τ).loc main_arg1))) (Cert.Gcn.dstOf (m ((c.tc : Thread nD τ).loc main_arg1)))
    (m ((c.tc : Thread nD τ).loc main_arg3))

/-! ## After the aggregation, and after `relu` (region 1's entry) -/

theorem e3_conv : W3 m ρ c (Proc.devRef .tc main_v47) = layer1 m c := by
  refine (Stages.s1_conv (W2 m ρ c)).trans ?_
  rw [e2_h, e2_src, e2_dst, e2_arg3]
theorem e3_src : W3 m ρ c (Proc.devRef .tc main_v1) = Cert.Gcn.srcOf (m ((c.tc : Thread nD τ).loc main_arg1)) :=
  (Stages.s1_v1 (W2 m ρ c)).trans (e2_src m ρ c)
theorem e3_dst : W3 m ρ c (Proc.devRef .tc main_v3) = Cert.Gcn.dstOf (m ((c.tc : Thread nD τ).loc main_arg1)) :=
  (Stages.s1_v3 (W2 m ρ c)).trans (e2_dst m ρ c)
theorem e3_arg4 : W3 m ρ c (Proc.devRef .tc main_arg4) = m ((c.tc : Thread nD τ).loc main_arg4) :=
  (Stages.s1_arg4 (W2 m ρ c)).trans (e2_arg4 m ρ c)
theorem e3_arg5 : W3 m ρ c (Proc.devRef .tc main_arg5) = m ((c.tc : Thread nD τ).loc main_arg5) :=
  (Stages.s1_arg5 (W2 m ρ c)).trans (e2_arg5 m ρ c)

theorem e4_relu : W4 m ρ c (Proc.devRef .tc main_v48) = Cert.Gcn.relu (F := Ideal) (layer1 m c) := by
  refine (Stages.s2_relu (W3 m ρ c)).trans ?_
  rw [e3_conv]
theorem e4_src : W4 m ρ c (Proc.devRef .tc main_v1) = Cert.Gcn.srcOf (m ((c.tc : Thread nD τ).loc main_arg1)) :=
  (Stages.s2_v1 (W3 m ρ c)).trans (e3_src m ρ c)
theorem e4_dst : W4 m ρ c (Proc.devRef .tc main_v3) = Cert.Gcn.dstOf (m ((c.tc : Thread nD τ).loc main_arg1)) :=
  (Stages.s2_v3 (W3 m ρ c)).trans (e3_dst m ρ c)
theorem e4_arg4 : W4 m ρ c (Proc.devRef .tc main_arg4) = m ((c.tc : Thread nD τ).loc main_arg4) :=
  (Stages.s2_arg4 (W3 m ρ c)).trans (e3_arg4 m ρ c)
theorem e4_arg5 : W4 m ρ c (Proc.devRef .tc main_arg5) = m ((c.tc : Thread nD τ).loc main_arg5) :=
  (Stages.s2_arg5 (W3 m ρ c)).trans (e3_arg5 m ρ c)

/-! ## At region 1's exit: its output holds the second product -/

theorem e5_h : W5 m ρ c (Proc.devRef .tc main_v49)
    = Cert.Gcn.dense2 (F := Ideal) (Cert.Gcn.relu (layer1 m c)) (m ((c.tc : Thread nD τ).loc main_arg4)) := by
  refine (W5_arr m ρ c 2).trans ((Dense.final1 (V4 m ρ) c).trans ?_)
  show Cert.Gcn.dense2 (F := Ideal) (W4 m ρ c (Proc.devRef .tc main_v48)) (W4 m ρ c (Proc.devRef .tc main_arg4)) = _
  rw [e4_relu, e4_arg4]
theorem e5_src : W5 m ρ c (Proc.devRef .tc main_v1) = Cert.Gcn.srcOf (m ((c.tc : Thread nD τ).loc main_arg1)) :=
  (W5_of_ne m ρ c main_v1 (by decide)).trans (e4_src m ρ c)
theorem e5_dst : W5 m ρ c (Proc.devRef .tc main_v3) = Cert.Gcn.dstOf (m ((c.tc : Thread nD τ).loc main_arg1)) :=
  (W5_of_ne m ρ c main_v3 (by decide)).trans (e4_dst m ρ c)
theorem e5_arg5 : W5 m ρ c (Proc.devRef .tc main_arg5) = m ((c.tc : Thread nD τ).loc main_arg5) :=
  (W5_of_ne m ρ c main_arg5 (by decide)).trans (e4_arg5 m ρ c)

/-! ## At the return -/

/-- The result buffer ends holding the network of the arguments. -/
theorem result : W6 m ρ c (Proc.devRef .tc main_v92)
    = Cert.Gcn.forward (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (Stages.s3_conv (W5 m ρ c)).trans ?_
  rw [e5_h, e5_src, e5_dst, e5_arg5]
  rfl

end Cert.KernelIdeal.NetValue

end
-- ==== Proof.RefValue.lean ====
/-
  The reference's result as the two-layer network of Proof/HostChain.lean: its run's composed term IS
  `conv64 (relu (conv128 (x·W₁)) · W₂)` of the argument arrays, the same operations in the same order.
-/
import proofs.«137767_j37477884625100_1_alg».proof.Proof.Gen.ReferenceIdeal.Run
import proofs.«137767_j37477884625100_1_alg».proof.Proof.HostChain

set_option maxRecDepth 8192

noncomputable section

namespace Cert.ReferenceIdeal.RefValue

open Idealize.ShloMosaic Idealize.ShloMosaic.TcCoe Idealize.SL.Sem Cert.ReferenceIdeal Cert.ReferenceIdeal.Gen

variable {F : FTy → Type} [FloatOps F]

/-- What the reference leaves in its result buffer is the network applied to its six argument arrays. -/
theorem result_eq (m : (ℓ : Loc nD τ sig) → Buf (Elt F) ℓ) (c : Dev nD) :
    Cert.ReferenceIdeal.Value.res_main_v92 m c
      = Cert.Gcn.forward (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v92
  rfl

end Cert.ReferenceIdeal.RefValue

end
-- ==== Proof.lean ====
/-
  A two-layer graph convolution on 50000 nodes and 500000 edges:
      out = conv₂ (relu (conv₁ (x · W₁)) · W₂),     conv (h)[i, :] = Σ_{e : dst e = i} dinv[src e]·dinv[dst e]·h[src e, :] + dinv[i]²·h[i, :] + b,
  with `dinv = (1 + in-degree)^(-1/2)`. The kernel program computes the two matrix products on the matrix unit, ten
  row blocks of 5000 rows each with both operands cast to bf16, and everything else with host operations; the
  reference computes the two products whole and runs the same host operations.

  On the extended reals a cast between float formats is the identity, and a block product into a zero accumulator is,
  entry by entry, the sum `Σ_k left[r, k] · right[k, q]` that the whole product has at that entry; the ten row blocks
  tile the output. So each region leaves exactly the whole product (Proof/Dense.lean), the host operations around the
  regions are the same functions in both programs (Proof/HostChain.lean, Proof/HostStages.lean, Proof/RefValue.lean), and
  both results are one function of the six arguments (Proof/KernelValue.lean). No finiteness of the inputs is used:
  the two sides are the same sums in the same order, not merely equal by a law of arithmetic.
-/
import proofs.«137767_j37477884625100_1_alg».proof.Defs
import proofs.«137767_j37477884625100_1_alg».proof.Proof.Gen.Kernel
import proofs.«137767_j37477884625100_1_alg».proof.Proof.Gen.Kernel.Frame
import proofs.«137767_j37477884625100_1_alg».proof.Proof.Gen.KernelIdeal
import proofs.«137767_j37477884625100_1_alg».proof.Proof.Gen.KernelIdeal.Frame
import proofs.«137767_j37477884625100_1_alg».proof.Proof.Gen.ReferenceIdeal
import proofs.«137767_j37477884625100_1_alg».proof.Proof.Gen.ReferenceIdeal.Run
import proofs.«137767_j37477884625100_1_alg».proof.Proof.Gen.Pre_finite_inputs
import proofs.«137767_j37477884625100_1_alg».proof.Proof.KernelRun
import proofs.«137767_j37477884625100_1_alg».proof.Proof.KernelValue
import proofs.«137767_j37477884625100_1_alg».proof.Proof.RefValue
import Idealize.ShloMosaic.Adequacy
import Idealize.ShloMosaic.Init

noncomputable section

namespace Cert.Proof

open Idealize.ShloMosaic Idealize.SL.Sem

/-- The kernel program runs and leaves its arguments alone, at the word level and on the extended reals. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments alone: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffer; the arguments agree, so the results do. -/
theorem algebraic : Cert.algebraic_KernelIdeal_ReferenceIdeal := by
  intro m ρ m' ρ' _ hagree
  refine ⟨fun c => Cert.Gcn.forward (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.NetValue.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
